-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x12x64x64x64 : Shape := ⟨5, ![16, 12, 64, 64, 64]⟩
abbrev S_ : Shape := ⟨0, ![]⟩

class Facts : Prop where
  bcast_S_S16x12x64x64x64 : S_.BroadcastsInDim S16x12x64x64x64 (![] : Fin 0 → Fin S16x12x64x64x64.rank)
  reducesTo_S16x12x64x64x64_S_d0_1_2_3_4 : S16x12x64x64x64.ReducesTo [0, 1, 2, 3, 4] S_
  h_S_ : 0 < S_.numel

variable [Facts]

def fn {F : FTy → Type} [FloatOps F] (main_arg0 : FVec F S16x12x64x64x64 .f32) (main_arg1 : FVec F S16x12x64x64x64 .f32) : IVec S_ 1 :=
  let main_v0 : FVec F S16x12x64x64x64 .f32 := Host.absf main_arg0
  let main_cst : FVec F S_ .f32 := constant S_ .f32 0x7F800000#32
  let main_v1 : FVec F S16x12x64x64x64 .f32 := broadcastInDim S16x12x64x64x64 ![] bcast_S_S16x12x64x64x64 main_cst
  let main_v2 : IVec S16x12x64x64x64 1 := cmpf .olt main_v0 main_v1
  let main_c : IVec S_ 1 := constantI S_ 1 1#1
  let main_v3 : IVec S_ 1 := (fun x v => Host.reduce IntOp.andi x v reducesTo_S16x12x64x64x64_S_d0_1_2_3_4 h_S_) main_v2 main_c
  let main_v4 : FVec F S16x12x64x64x64 .f32 := Host.absf main_arg1
  let main_cst_0 : FVec F S_ .f32 := constant S_ .f32 0x7F800000#32
  let main_v5 : FVec F S16x12x64x64x64 .f32 := broadcastInDim S16x12x64x64x64 ![] bcast_S_S16x12x64x64x64 main_cst_0
  let main_v6 : IVec S16x12x64x64x64 1 := cmpf .olt main_v4 main_v5
  let main_c_1 : IVec S_ 1 := constantI S_ 1 1#1
  let main_v7 : IVec S_ 1 := (fun x v => Host.reduce IntOp.andi x v reducesTo_S16x12x64x64x64_S_d0_1_2_3_4 h_S_) main_v6 main_c_1
  let main_v8 : IVec S_ 1 := andi main_v3 main_v7
  main_v8
-- ==== Kernel.lean ====
abbrev S16x12x64x64x64 : Shape := ⟨5, ![16, 12, 64, 64, 64]⟩
abbrev S192x262144 : Shape := ⟨2, ![192, 262144]⟩
abbrev S192x1 : Shape := ⟨2, ![192, 1]⟩
abbrev S96x16384 : Shape := ⟨2, ![96, 16384]⟩
abbrev S96x1 : Shape := ⟨2, ![96, 1]⟩
abbrev S96 : Shape := ⟨1, ![96]⟩
abbrev S16x12 : Shape := ⟨2, ![16, 12]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16x12x64x64x64, .f32⟩
  | .hbm, ⟨1, _⟩ => ⟨S16x12x64x64x64, .f32⟩
  | .hbm, ⟨2, _⟩ => ⟨S192x262144, .f32⟩
  | .hbm, ⟨3, _⟩ => ⟨S192x262144, .f32⟩
  | .hbm, ⟨4, _⟩ => ⟨S192x1, .f32⟩
  | .hbm, ⟨5, _⟩ => ⟨S16x12, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S96x16384, .f32⟩
  | .local _ .vmem, ⟨1, _⟩ => ⟨S96x16384, .f32⟩
  | .local _ .vmem, ⟨2, _⟩ => ⟨S96x16384, .f32⟩
  | .local _ .vmem, ⟨3, _⟩ => ⟨S96x16384, .f32⟩
  | .local _ .vmem, ⟨4, _⟩ => ⟨S96x1, .f32⟩
  | .local _ .vmem, ⟨5, _⟩ => ⟨S96x1, .f32⟩
  | .local _ .vmem, ⟨6, _⟩ => ⟨S96x1, .f32⟩
  | .local _ .vmem, ⟨7, _⟩ => ⟨S96x1, .f32⟩
  | _, _ => ⟨S16x12x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S96x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S96x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S96x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x12x64x64x64_S192x262144 : S16x12x64x64x64.ShapeCasts S192x262144
  inb_S96x1_S96x1_0_0 : ∀ a, (![0, 0] : Fin 2 → Nat) a + S96x1.size a ≤ S96x1.size a
  h_S96x1 : 0 < S96x1.numel
  shapeCasts_S96x1_S96x1 : S96x1.ShapeCasts S96x1
  inb_S96x16384_S96x16384_0_0 : ∀ a, (![0, 0] : Fin 2 → Nat) a + S96x16384.size a ≤ S96x16384.size a
  h_S96x16384 : 0 < S96x16384.numel
  shapeCasts_S96x16384_S96x16384 : S96x16384.ShapeCasts S96x16384
  reduces_S96x16384_S96 : S96x16384.Reduces [1] S96
  shapeCasts_S96_S96x1 : S96.ShapeCasts S96x1
  shapeCasts_S192x1_S16x12 : S192x1.ShapeCasts S16x12
  reducesTo_S16x12_S_d0_1 : S16x12.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x16384.size a ≤ S192x262144.size a
  hwx0_0 : ∀ i : grid0.Coords, EltTy.bits .f32 = 32 ∨ (Rect.block (s := S192x262144) S96x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S96x16384.size a ≤ S192x262144.size a
  hwx0_1 : ∀ i : grid0.Coords, EltTy.bits .f32 = 32 ∨ (Rect.block (s := S192x262144) S96x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S96x1.size a ≤ S192x1.size a
  hwx0_2 : ∀ i : grid0.Coords, EltTy.bits .f32 = 32 ∨ (Rect.block (s := S192x1) S96x1.size (cc0_transform_2 i) (hinb0_2 i)).WholeWords (EltTy.packing .f32)

variable [Facts₀]

abbrev win0_0 : Pipeline.Window sig grid0 :=
  Pipeline.Window.ofSpec (Memref.whole main_v0) S96x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S96x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S96x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x12x64x64x64 : Shape := ⟨5, ![16, 12, 64, 64, 64]⟩
abbrev S_ : Shape := ⟨0, ![]⟩
abbrev S16x12 : Shape := ⟨2, ![16, 12]⟩

abbrev nBuf : Space → Nat
  | .hbm => 17
  | .vmem => 0
  | .smem => 0
  | _ => 0

abbrev bufTy : (tb : Table) → Fin (tcTables nBuf tb) → BufTy
  | .hbm, ⟨0, _⟩ => ⟨S16x12x64x64x64, .f32⟩
  | .hbm, ⟨1, _⟩ => ⟨S16x12x64x64x64, .f32⟩
  | .hbm, ⟨2, _⟩ => ⟨S_, .f32⟩
  | .hbm, ⟨3, _⟩ => ⟨S16x12, .f32⟩
  | .hbm, ⟨4, _⟩ => ⟨S_, .f32⟩
  | .hbm, ⟨5, _⟩ => ⟨S16x12, .f32⟩
  | .hbm, ⟨6, _⟩ => ⟨S16x12, .f32⟩
  | .hbm, ⟨7, _⟩ => ⟨S_, .f32⟩
  | .hbm, ⟨8, _⟩ => ⟨S16x12, .f32⟩
  | .hbm, ⟨9, _⟩ => ⟨S_, .f32⟩
  | .hbm, ⟨10, _⟩ => ⟨S16x12, .f32⟩
  | .hbm, ⟨11, _⟩ => ⟨S16x12, .f32⟩
  | .hbm, ⟨12, _⟩ => ⟨S16x12, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16x12x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S16x12x64x64x64_S16x12_d2_3_4 : S16x12x64x64x64.ReducesTo [2, 3, 4] S16x12
  h_S_ : 0 < S_.numel
  bcast_S_S16x12 : S_.BroadcastsInDim S16x12 (![] : Fin 0 → Fin S16x12.rank)
  reducesTo_S16x12_S_d0_1 : S16x12.ReducesTo [0, 1] S_

variable [Facts₀]

class Facts : Prop extends Facts₀ where

variable [Facts]
-- ==== Proof.Sums.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Mathlib.Algebra.BigOperators.Fin

noncomputable section

open scoped BigOperators

namespace Cert.RowMeans

open Idealize.ShloMosaic Idealize.ShloMosaic.ValueIdx

/-- The arguments' five-axis shape, its view as 192 rows of 262144 entries, and the 16 x 12 grid of rows. -/
abbrev A5 : Shape := ⟨5, ![16, 12, 64, 64, 64]⟩
abbrev A2 : Shape := ⟨2, ![192, 262144]⟩
abbrev R2 : Shape := ⟨2, ![16, 12]⟩

/-! ## The scale: dividing by 2^18 is multiplying by 2^-18 -/

/-- The divisor's word denotes the real 2^18 = 262144. -/
theorem ofBits_two18 : Ideal.ofBits .f32 0x48800000#32 = ((262144 : ℝ) : EReal) := by
  simp [Ideal.ofBits, Ideal.ieee, -EReal.coe_mul]; norm_num

/-- The factor's word denotes the real 2^-18 exactly: a power of two, so nothing is rounded. -/
theorem ofBits_inv_two18 : Ideal.ofBits .f32 0x36800000#32 = ((1 / 262144 : ℝ) : EReal) := by
  simp [Ideal.ofBits, Ideal.ieee, -EReal.coe_mul]; norm_num

/-- On every extended real, the infinities included, the quotient by 2^18 is the product with 2^-18. -/
theorem div_two18 (x : EReal) :
    Ideal.div x (Ideal.ofBits .f32 0x48800000#32) = x * Ideal.ofBits .f32 0x36800000#32 := by
  rw [ofBits_two18, ofBits_inv_two18]
  exact Ideal.div_coe (by norm_num) x

/-! ## A row of 262144 entries summed as 16 column blocks of 16384 -/

/-- A sum over a row is the sum, over the 16 column blocks, of each block's sum: addition of extended reals is
    commutative and associative, so the grouping does not matter. -/
theorem sum_col_blocks (g : Fin 262144 → EReal) :
    ∑ k : Fin 262144, g k
      = ∑ b : Fin 16, ∑ l : Fin 16384, g ⟨16384 * b.val + l.val, by have := b.isLt; have := l.isLt; omega⟩ := by
  have e := (Equiv.sum_comp (finProdFinEquiv (m := 16) (n := 16384)) (fun k : Fin (16 * 16384) => g k)).symm
  rw [Fintype.sum_prod_type] at e
  refine e.trans ?_
  refine Finset.sum_congr rfl fun b _ => Finset.sum_congr rfl fun l _ => congrArg g (Fin.ext ?_)
  simp only [finProdFinEquiv, Equiv.coe_fn_mk]
  omega

/-! ## The sum over the three trailing axes at (b, s) is the sum of row 12 b + s of the reshaped array -/

/-- Which entries reduce to (b, s) under the drop of axes 2, 3, 4: those whose two leading coordinates are b and s. -/
theorem drop_eq_iff (h' : A5.ReducesTo [2, 3, 4] R2) (i : A5.Idx) (b : Fin 16) (s : Fin 12) :
    h'.drop i = ix2 b s ↔ (i 0).val = b.val ∧ (i 1).val = s.val := by
  constructor
  · intro h
    refine ⟨?_, ?_⟩
    · have := congrArg (fun j : R2.Idx => (j 0).val) h
      simpa [Shape.ReducesTo.drop_apply_val_of_eq h' i 0 0] using this
    · have := congrArg (fun j : R2.Idx => (j 1).val) h
      simpa [Shape.ReducesTo.drop_apply_val_of_eq h' i 1 1] using this
  · rintro ⟨h0, h1⟩
    funext a
    apply Fin.ext
    match a with
    | ⟨0, _⟩ => exact (Shape.ReducesTo.drop_apply_val_of_eq h' i 0 0).trans h0
    | ⟨1, _⟩ => exact (Shape.ReducesTo.drop_apply_val_of_eq h' i 1 1).trans h1

/-- An entry of the five-axis array is the entry of its 192 x 262144 view at the same row-major position: row
    12 b + s, column 4096 c + 64 h + w. -/
theorem reshape_entry (x : A5.Idx → EReal) (hc : A5.ShapeCasts A2) (i : A5.Idx) (r : Fin 192) (k : Fin 262144)
    (hr : r.val = 12 * (i 0).val + (i 1).val) (hk : k.val = 4096 * (i 2).val + 64 * (i 3).val + (i 4).val) :
    shapeCast A2 x hc (ix2 r k) = x i := by
  refine shapeCast_apply x hc (ix2 r k) i ?_
  rw [Shape.rowMajor_val_five, Shape.rowMajor_val_two]
  show ((((i 0).val * 12 + (i 1).val) * 64 + (i 2).val) * 64 + (i 3).val) * 64 + (i 4).val = r.val * 262144 + k.val
  omega

/-- The reference's sum over axes 2, 3, 4 at (b, s) runs over exactly the entries of row 12 b + s of the view. -/
theorem reduce234_eq_row (x : A5.Idx → EReal) (h' : A5.ReducesTo [2, 3, 4] R2) (hc : A5.ShapeCasts A2)
    (b : Fin 16) (s : Fin 12) :
    ∑ i ∈ Finset.univ.filter (fun i : A5.Idx => h'.drop i = ix2 b s), x i
      = ∑ k : Fin 262144, shapeCast A2 x hc (ix2 ⟨12 * b.val + s.val, by have := b.isLt; have := s.isLt; omega⟩ k) := by
  refine Finset.sum_nbij'
    (fun i : A5.Idx => (⟨4096 * (i 2).val + 64 * (i 3).val + (i 4).val, by
      have h2 : (i 2).val < 64 := (i 2).isLt
      have h3 : (i 3).val < 64 := (i 3).isLt
      have h4 : (i 4).val < 64 := (i 4).isLt
      omega⟩ : Fin 262144))
    (fun k : Fin 262144 => (ix5 b s ⟨k.val / 4096, by have := k.isLt; omega⟩ ⟨k.val / 64 % 64, by omega⟩ ⟨k.val % 64, by omega⟩ : A5.Idx))
    ?_ ?_ ?_ ?_ ?_
  · intro i _; exact Finset.mem_univ _
  · intro k _
    rw [Finset.mem_filter]
    exact ⟨Finset.mem_univ _, (drop_eq_iff h' _ b s).mpr ⟨rfl, rfl⟩⟩
  · intro i hi
    rw [Finset.mem_filter] at hi
    obtain ⟨h0, h1⟩ := (drop_eq_iff h' i b s).mp hi.2
    have h2 : (i 2).val < 64 := (i 2).isLt
    have h3 : (i 3).val < 64 := (i 3).isLt
    have h4 : (i 4).val < 64 := (i 4).isLt
    funext a
    apply Fin.ext
    match a with
    | ⟨0, _⟩ => exact h0.symm
    | ⟨1, _⟩ => exact h1.symm
    | ⟨2, _⟩ => show (4096 * (i 2).val + 64 * (i 3).val + (i 4).val) / 4096 = (i 2).val; omega
    | ⟨3, _⟩ => show (4096 * (i 2).val + 64 * (i 3).val + (i 4).val) / 64 % 64 = (i 3).val; omega
    | ⟨4, _⟩ => show (4096 * (i 2).val + 64 * (i 3).val + (i 4).val) % 64 = (i 4).val; omega
  · intro k _
    apply Fin.ext
    show 4096 * (k.val / 4096) + 64 * (k.val / 64 % 64) + k.val % 64 = k.val
    omega
  · intro i hi
    rw [Finset.mem_filter] at hi
    obtain ⟨h0, h1⟩ := (drop_eq_iff h' i b s).mp hi.2
    exact (reshape_entry x hc i _ _ (by show 12 * b.val + s.val = _; rw [h0, h1]) rfl).symm

/-! ## Rows and column blocks indexed by natural numbers

The kernel visits the 192 x 262144 view in blocks of 96 rows and 16384 columns. To follow it block by block the
entries are addressed by natural-number coordinates (zero outside the array, which no sum below reaches). -/

/-- The entry at natural-number coordinates. -/
def entry (X : A2.Idx → EReal) (a b : ℕ) : EReal :=
  if h : a < 192 ∧ b < 262144 then X (ix2 ⟨a, h.1⟩ ⟨b, h.2⟩) else 0

theorem entry_eq (X : A2.Idx → EReal) (a : Fin 192) (b : Fin 262144) : entry X a.val b.val = X (ix2 a b) := by
  unfold entry
  rw [dif_pos ⟨a.isLt, b.isLt⟩]

/-- Row a of column block b, summed. -/
def blockRow (X : A2.Idx → EReal) (a b : ℕ) : EReal := ∑ l ∈ Finset.range 16384, entry X a (16384 * b + l)

/-- Row a summed over the column blocks 0, …, j: what an accumulator holds after column block j. -/
def partialRow (X : A2.Idx → EReal) (a j : ℕ) : EReal := ∑ b ∈ Finset.range (j + 1), blockRow X a b

theorem partialRow_zero (X : A2.Idx → EReal) (a : ℕ) : partialRow X a 0 = 0 + blockRow X a 0 := by
  unfold partialRow
  rw [Finset.sum_range_one, zero_add]

theorem partialRow_succ (X : A2.Idx → EReal) (a j : ℕ) : partialRow X a (j + 1) = partialRow X a j + blockRow X a (j + 1) := by
  unfold partialRow
  exact Finset.sum_range_succ _ _

/-- After the last column block the accumulator holds the whole row's sum. -/
theorem partialRow_last (X : A2.Idx → EReal) (a : Fin 192) : partialRow X a.val 15 = ∑ k : Fin 262144, X (ix2 a k) := by
  unfold partialRow blockRow
  rw [sum_col_blocks (fun k => X (ix2 a k)), Finset.sum_range (fun b => ∑ l ∈ Finset.range 16384, entry X a.val (16384 * b + l))]
  refine Finset.sum_congr rfl fun b _ => ?_
  rw [Finset.sum_range (fun l => entry X a.val (16384 * b.val + l))]
  refine Finset.sum_congr rfl fun l _ => ?_
  exact entry_eq X a ⟨16384 * b.val + l.val, by have := b.isLt; have := l.isLt; omega⟩

end Cert.RowMeans

end
-- ==== Proof.Blocks.lean ====
import proofs.«131661_j77214922048106_1_alg».proof.Proof.Gen.KernelIdeal.Frame
import proofs.«131661_j77214922048106_1_alg».proof.Proof.Sums
import Idealize.ShloMosaic.Lib.Pipeline.Value
import Idealize.ShloMosaic.Lib.ValueIdx
import Idealize.ShloMosaic.Lib.StableHlo.Run

set_option maxRecDepth 16384

noncomputable section

namespace Cert.KernelIdeal.Body

open Idealize.ShloMosaic Idealize.ShloMosaic.TcCoe Idealize.ShloMosaic.Tactic Idealize.SL.Sem Idealize.ShloMosaic.ValueIdx
open Cert.KernelIdeal Cert.KernelIdeal.Gen

variable {F : FTy → Type} [FloatOps F]
variable (m : (ℓ : Loc nD τ sig) → Buf (Elt F) ℓ)

/-! Which part of the 192 x 262144 arrays the grid's point t sees: point t is row block t / 16 and column block
    t % 16, an input block is rows 96 (t / 16) … and columns 16384 (t % 16) …, and the output block is rows
    96 (t / 16) … of the one column. -/

/-- The first input's block index at point t. -/
theorem index_in0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
/-- The second input's, the same. -/
theorem index_in1 : ∀ t : Fin cfg0.N, win0_1.index t 0 = t.val / 16 ∧ win0_1.index t 1 = t.val % 16 :=
  (by decide +kernel : ∀ t : Fin grid0.N, win0_1.index t 0 = t.val / 16 ∧ win0_1.index t 1 = t.val % 16)
/-- The output's: the row block, and the one column. -/
theorem index_out : ∀ t : Fin cfg0.N, win0_2.index t 0 = t.val / 16 ∧ win0_2.index t 1 = 0 :=
  (by decide +kernel : ∀ t : Fin grid0.N, win0_2.index t 0 = t.val / 16 ∧ win0_2.index t 1 = 0)

/-- An entry of the first input's block at point t is the entry of the array 96 (t / 16) rows down and
    16384 (t % 16) columns along. -/
theorem block0_apply (c : Dev nD) (t : Fin cfg0.N) (x : S96x16384.Idx) (k : S192x262144.Idx)
    (hk0 : (k 0).val = 96 * (t.val / 16) + (x 0).val) (hk1 : (k 1).val = 16384 * (t.val % 16) + (x 1).val) :
    (iblk m c 0 t : Vec F S96x16384 .f32) x = (V m c main_v0 : S192x262144.Idx → Elt F .f32) k := by
  unfold iblk
  rw [View.read_apply]
  show (V m c main_v0 : S192x262144.Idx → Elt F .f32) _ = _
  refine congrArg (V m c main_v0 : S192x262144.Idx → Elt F .f32) ?_
  funext a
  apply Fin.ext
  match a with
  | ⟨0, _⟩ => show win0_0.index t 0 * 96 + 1 * (x 0).val = (k 0).val; rw [(index_in0 t).1, hk0]; omega
  | ⟨1, _⟩ => show win0_0.index t 1 * 16384 + 1 * (x 1).val = (k 1).val; rw [(index_in0 t).2, hk1]; omega

/-- The same for the second input. -/
theorem block1_apply (c : Dev nD) (t : Fin cfg0.N) (x : S96x16384.Idx) (k : S192x262144.Idx)
    (hk0 : (k 0).val = 96 * (t.val / 16) + (x 0).val) (hk1 : (k 1).val = 16384 * (t.val % 16) + (x 1).val) :
    (iblk m c 1 t : Vec F S96x16384 .f32) x = (V m c main_v1 : S192x262144.Idx → Elt F .f32) k := by
  unfold iblk
  rw [View.read_apply]
  show (V m c main_v1 : S192x262144.Idx → Elt F .f32) _ = _
  refine congrArg (V m c main_v1 : S192x262144.Idx → Elt F .f32) ?_
  funext a
  apply Fin.ext
  match a with
  | ⟨0, _⟩ => show win0_1.index t 0 * 96 + 1 * (x 0).val = (k 0).val; rw [(index_in1 t).1, hk0]; omega
  | ⟨1, _⟩ => show win0_1.index t 1 * 16384 + 1 * (x 1).val = (k 1).val; rw [(index_in1 t).2, hk1]; omega

/-- Before the region the host lays the first argument out as 192 rows of 262144: the array the first window
    reads is that view of the argument. -/
theorem array0_eq (c : Dev nD) :
    (V m c main_v0 : S192x262144.Idx → Elt F .f32)
      = shapeCast S192x262144 (m ((c : Thread nD τ).loc main_arg0) : S16x12x64x64x64.Idx → Elt F .f32) shapeCasts_S16x12x64x64x64_S192x262144 := by
  show StableHlo.after hostOps0 (fun b => m (c, b)) (Proc.devRef .tc main_v0) = _
  after_results
  rfl

/-- Likewise the second argument and the array the second window reads. -/
theorem array1_eq (c : Dev nD) :
    (V m c main_v1 : S192x262144.Idx → Elt F .f32)
      = shapeCast S192x262144 (m ((c : Thread nD τ).loc main_arg1) : S16x12x64x64x64.Idx → Elt F .f32) shapeCasts_S16x12x64x64x64_S192x262144 := by
  show StableHlo.after hostOps0 (fun b => m (c, b)) (Proc.devRef .tc main_v1) = _
  after_results
  rfl

end Cert.KernelIdeal.Body

end
-- ==== Proof.Pieces.lean ====
import proofs.«131661_j77214922048106_1_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

/-! What one run of the body leaves in the two carried accumulators and, at the last column block, in the output
    block: each is one of the body's payloads applied to the point's two input blocks and to what the accumulators
    held before. The first accumulator adds the first input's lane sums, the second the second input's. -/

/-- Every store and load of the body is at offset (0, 0): it moves a whole block. -/
theorem hz : (![0, 0] : Fin 2 → Nat) = fun _ => 0 := funext fun a => by fin_cases a <;> rfl

/-- At a first column block the first accumulator is zeroed and then updated: it ends at the update of zero. -/
theorem scratch0_A (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : cond0_0 i) (hc1 : ¬cond0_1 i)
    (x0 : Vec F S96x16384 .f32) (x1 : Vec F S96x16384 .f32) :
    sout0_A_0 (F := F) c i arg2 harg2 arg3 harg3 arg4 harg4 arg5 harg5 arg6 harg6 hc0 hc1 x0 x1 = k0_pay3 x0 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S96x1) hz, View.readCov_unit_zero (S := S96x1) _ hz]
  simp only [View.readAt_eq_ld, harg2.read_unread, harg3.read_unread, harg5.read_unread, harg6.read_unread,
    View.ld_unit_zero (S := S96x16384) hz, View.ld_unit_zero (S := S96x1) hz]

/-- Likewise the second accumulator at a first column block. -/
theorem scratch1_A (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : cond0_0 i) (hc1 : ¬cond0_1 i)
    (x0 : Vec F S96x16384 .f32) (x1 : Vec F S96x16384 .f32) :
    sout0_A_1 (F := F) c i arg2 harg2 arg3 harg3 arg4 harg4 arg5 harg5 arg6 harg6 hc0 hc1 x0 x1 = k0_pay4 x1 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S96x1) hz, View.readCov_unit_zero (S := S96x1) _ hz]
  simp only [View.readAt_eq_ld, harg2.read_unread, harg3.read_unread, harg5.read_unread, harg6.read_unread,
    View.ld_unit_zero (S := S96x16384) hz, View.ld_unit_zero (S := S96x1) hz]

/-- At a middle column block the first accumulator is updated over what the point before left. -/
theorem scratch0_B (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : ¬cond0_0 i) (hc1 : ¬cond0_1 i)
    (x0 : Vec F S96x16384 .f32) (x1 : Vec F S96x16384 .f32) (xs0 : Vec F S96x1 .f32) (xs1 : Vec F S96x1 .f32) :
    sout0_B_0 (F := F) c i arg2 harg2 arg3 harg3 arg4 harg4 arg5 harg5 arg6 harg6 hc0 hc1 x0 x1 xs0 xs1 = k0_pay3 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S96x16384) hz, View.ld_unit_zero (S := S96x1) hz]

/-- Likewise the second accumulator at a middle column block. -/
theorem scratch1_B (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : ¬cond0_0 i) (hc1 : ¬cond0_1 i)
    (x0 : Vec F S96x16384 .f32) (x1 : Vec F S96x16384 .f32) (xs0 : Vec F S96x1 .f32) (xs1 : Vec F S96x1 .f32) :
    sout0_B_1 (F := F) c i arg2 harg2 arg3 harg3 arg4 harg4 arg5 harg5 arg6 harg6 hc0 hc1 x0 x1 xs0 xs1 = k0_pay4 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S96x16384) hz, View.ld_unit_zero (S := S96x1) hz]

/-- At the last column block the first accumulator is updated in the same way, -/
theorem scratch0_C (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : ¬cond0_0 i) (hc1 : cond0_1 i)
    (x0 : Vec F S96x16384 .f32) (x1 : Vec F S96x16384 .f32) (xs0 : Vec F S96x1 .f32) (xs1 : Vec F S96x1 .f32) :
    sout0_C_0 (F := F) c i arg2 harg2 arg3 harg3 arg4 harg4 arg5 harg5 arg6 harg6 hc0 hc1 x0 x1 xs0 xs1 = k0_pay3 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S96x16384) hz, View.ld_unit_zero (S := S96x1) hz]

/-- and so is the second, -/
theorem scratch1_C (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : ¬cond0_0 i) (hc1 : cond0_1 i)
    (x0 : Vec F S96x16384 .f32) (x1 : Vec F S96x16384 .f32) (xs0 : Vec F S96x1 .f32) (xs1 : Vec F S96x1 .f32) :
    sout0_C_1 (F := F) c i arg2 harg2 arg3 harg3 arg4 harg4 arg5 harg5 arg6 harg6 hc0 hc1 x0 x1 xs0 xs1 = k0_pay4 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S96x16384) hz, View.ld_unit_zero (S := S96x1) hz]

/-- and the output block is the product payload of the two accumulators as just updated. -/
theorem output_C (c : Dev nD) (i : grid0.Coords) (arg2 : Memref sig .tc .vmem S96x16384 .f32) (harg2 : arg2.IsWhole) (arg3 : Memref sig .tc .vmem S96x16384 .f32) (harg3 : arg3.IsWhole) (arg4 : Memref sig .tc .vmem S96x1 .f32) (harg4 : arg4.IsWhole) (arg5 : Memref sig .tc .vmem S96x1 .f32) (harg5 : arg5.IsWhole) (arg6 : Memref sig .tc .vmem S96x1 .f32) (harg6 : arg6.IsWhole) (hc0 : ¬cond0_0 i) (hc1 : cond0_1 i)
    (x0 : Vec F S96x16384 .f32) (x1 : Vec F S96x16384 .f32) (xs0 : Vec F S96x1 .f32) (xs1 : Vec F S96x1 .f32) :
    out0_C_2 (F := F) c i arg2 harg2 arg3 harg3 arg4 harg4 arg5 harg5 arg6 harg6 hc0 hc1 x0 x1 xs0 xs1 = k0_pay5 (k0_pay3 x0 xs0) (k0_pay4 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S96x1) _ hz, View.readCov_unit_zero (S := S96x1) _ hz]
  simp only [View.readAt_eq_ld, harg2.read_unread, harg3.read_unread, harg5.read_unread, harg6.read_unread,
    View.ld_unit_zero (S := S96x16384) hz, View.ld_unit_zero (S := S96x1) hz]

end Cert.KernelIdeal.Body

end
-- ==== Proof.Payloads.lean ====
import proofs.«131661_j77214922048106_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx
open Cert.KernelIdeal Cert.KernelIdeal.Gen

/-! The body's arithmetic read at one entry, over the extended reals: an accumulator's update adds the sum of a
    block's row to the entry it held; the output entry is the product of the two accumulators' entries, each
    scaled by the same constant; a reset writes zero. -/

/-- The entry of a [96, 16384] block that the sum along the lanes adds into entry j is row j, lane k. -/
theorem lane_lift (h : S96x16384.Reduces [1] S96) (j : S96.Idx) (k : Fin (S96x16384.size 1)) :
    h.lift j k = ix2 (j 0) k := by
  funext a
  apply Fin.ext
  rw [h.lift_val]
  unfold Shape.Reduces.liftVal
  match a with
  | ⟨0, _⟩ => simp
  | ⟨1, _⟩ => simp

/-- The sum along the lanes of a [96, 16384] block, from zero, read at row r: the sum of that row's 16384 entries. -/
theorem lane_sum (src : FVec Ideal S96x16384 .f32) (h : S96x16384.Reduces [1] S96) (hφ : FKind.Formats .f32)
    (hacc : (0x00000000#32 : BitVec 32) = 0x00000000#32) (r : Fin 96) :
    multiReduction .add [1] S96 src 0x00000000#32 h hφ hacc (ix1 r) = ∑ l : Fin 16384, src (ix2 r l) :=
  (Ideal.multiReduction_add_single src 0x00000000#32 h hφ hacc (ix1 r)).trans
    (Finset.sum_congr rfl fun l _ => congrArg src (lane_lift h (ix1 r) l))

/-- The first accumulator's update at row r: what it held there plus the sum of row r of the first input's block. -/
theorem update0_apply (v3 : Vec Ideal S96x16384 .f32) (v7 : Vec Ideal S96x1 .f32) (r : Fin 96) :
    k0_pay3 (F := Ideal) v3 v7 (ix2 r 0) = v7 (ix2 r 0) + ∑ l : Fin 16384, v3 (ix2 r l) := by
  unfold k0_pay3
  rw [shapeCast_self, shapeCast_self]
  show v7 (ix2 r 0) + _ = _
  refine congrArg (fun z => v7 (ix2 r 0) + z) ?_
  rw [shapeCast_apply _ _ (ix2 r 0) (ix1 r) (by rw [Shape.rowMajor_val_one, Shape.rowMajor_val_two]; show r.val = r.val * 1 + 0; omega)]
  exact lane_sum _ _ _ _ r

/-- The second accumulator's update at row r, likewise over the second input's block. -/
theorem update1_apply (v5 : Vec Ideal S96x16384 .f32) (v14 : Vec Ideal S96x1 .f32) (r : Fin 96) :
    k0_pay4 (F := Ideal) v5 v14 (ix2 r 0) = v14 (ix2 r 0) + ∑ l : Fin 16384, v5 (ix2 r l) := by
  unfold k0_pay4
  rw [shapeCast_self, shapeCast_self]
  show v14 (ix2 r 0) + _ = _
  refine congrArg (fun z => v14 (ix2 r 0) + z) ?_
  rw [shapeCast_apply _ _ (ix2 r 0) (ix1 r) (by rw [Shape.rowMajor_val_one, Shape.rowMajor_val_two]; show r.val = r.val * 1 + 0; omega)]
  exact lane_sum _ _ _ _ r

/-- The output entry at row r: the two accumulators' entries, each times the scale, multiplied. -/
theorem product_apply (v24 v27 : Vec Ideal S96x1 .f32) (j : S96x1.Idx) :
    k0_pay5 (F := Ideal) v24 v27 j
      = (v24 j * Ideal.ofBits .f32 0x36800000#32) * (v27 j * Ideal.ofBits .f32 0x36800000#32) := rfl

/-- A reset writes zero at every entry. -/
theorem reset0_apply (j : S96x1.Idx) : k0_pay1 (F := Ideal) j = 0 := by
  unfold k0_pay1
  rw [shapeCast_self]
  exact Ideal.ofBits_zero_f32

theorem reset1_apply (j : S96x1.Idx) : k0_pay2 (F := Ideal) j = 0 := by
  unfold k0_pay2
  rw [shapeCast_self]
  exact Ideal.ofBits_zero_f32

end Cert.KernelIdeal.Body

end
-- ==== Proof.Accumulate.lean ====
import proofs.«131661_j77214922048106_1_alg».proof.Proof.Gen.KernelIdeal.Frame
import proofs.«131661_j77214922048106_1_alg».proof.Proof.Sums
import proofs.«131661_j77214922048106_1_alg».proof.Proof.Pieces
import proofs.«131661_j77214922048106_1_alg».proof.Proof.Payloads
import proofs.«131661_j77214922048106_1_alg».proof.Proof.Blocks
import Idealize.ShloMosaic.Lib.Pipeline.Value
import Idealize.ShloMosaic.Lib.ValueIdx

set_option maxRecDepth 16384

noncomputable section

open scoped BigOperators

namespace Cert.KernelIdeal.Body

open Idealize.ShloMosaic Idealize.ShloMosaic.TcCoe Idealize.SL.Sem Idealize.ShloMosaic.ValueIdx
open Cert.KernelIdeal Cert.KernelIdeal.Gen Cert.RowMeans

variable (m : (ℓ : Loc nD τ sig) → Buf (Elt Ideal) ℓ)

/-! The grid runs over 2 row blocks and, inside each, 16 column blocks. Within a row block the two accumulators
    are zeroed at the first column block and grow by one block's row sums at each point, so after column block j
    they hold the rows' sums over column blocks 0, …, j; at the last column block the output block is written
    from them. This module follows that point by point, over the extended reals. -/

/-- The two arrays the region reads, as functions on the 192 x 262144 index set, -/
abbrev arr0 (c : Dev nD) : A2.Idx → EReal := V m c main_v0
abbrev arr1 (c : Dev nD) : A2.Idx → EReal := V m c main_v1
/-- and the two input blocks at a point. -/
abbrev blk0 (c : Dev nD) (t : Fin cfg0.N) : Vec Ideal S96x16384 .f32 := iblk m c 0 t
abbrev blk1 (c : Dev nD) (t : Fin cfg0.N) : Vec Ideal S96x16384 .f32 := iblk m c 1 t

/-! ## One point -/

/-- At a first column block both accumulators end at their update of zero. -/
theorem first_block (c : Dev nD) (t : Fin cfg0.N) (h0 : t.val % 16 = 0) :
    (outsAt0 m c t.val t.isLt).2.1 = k0_pay3 (blk0 m c t) (k0_pay1 (F := Ideal))
    ∧ (outsAt0 m c t.val t.isLt).2.2 = k0_pay4 (blk1 m c t) (k0_pay2 (F := Ideal)) := by
  have h1 : ¬t.val % 16 = 15 := by omega
  rw [outsAt0_A m c t h0 h1]
  dsimp only
  exact ⟨scratch0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    scratch1_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- At any later column block, the last included, both end at their update of what the point before left. -/
theorem later_block (c : Dev nD) (n : ℕ) (hn : n + 1 < cfg0.N) (h0 : ¬(n + 1) % 16 = 0) :
    (outsAt0 m c (n + 1) hn).2.1 = k0_pay3 (blk0 m c ⟨n + 1, hn⟩) (outsAt0 m c n (Nat.lt_of_succ_lt hn)).2.1
    ∧ (outsAt0 m c (n + 1) hn).2.2 = k0_pay4 (blk1 m c ⟨n + 1, hn⟩) (outsAt0 m c n (Nat.lt_of_succ_lt hn)).2.2 := by
  by_cases h1 : (n + 1) % 16 = 15
  · rw [outsAt0_C m c ⟨n + 1, hn⟩ h0 h1]
    dsimp only
    exact ⟨scratch0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2.1 (outsAt0 m c n (Nat.lt_of_succ_lt hn)).2.2,
      scratch1_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2.1 (outsAt0 m c n (Nat.lt_of_succ_lt hn)).2.2⟩
  · rw [outsAt0_B m c ⟨n + 1, hn⟩ h0 h1]
    dsimp only
    exact ⟨scratch0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2.1 (outsAt0 m c n (Nat.lt_of_succ_lt hn)).2.2,
      scratch1_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2.1 (outsAt0 m c n (Nat.lt_of_succ_lt hn)).2.2⟩

/-- At a last column block the output block is the product payload of the two accumulators as that point leaves them. -/
theorem last_block_output (c : Dev nD) (n : ℕ) (hn : n + 1 < cfg0.N) (h1 : (n + 1) % 16 = 15) :
    (outsAt0 m c (n + 1) hn).1 = k0_pay5 (outsAt0 m c (n + 1) hn).2.1 (outsAt0 m c (n + 1) hn).2.2 := by
  have h0 : ¬(n + 1) % 16 = 0 := by omega
  obtain ⟨e0, e1⟩ := later_block m c n hn h0
  rw [e0, e1, outsAt0_C m c ⟨n + 1, hn⟩ h0 h1]
  dsimp only
  exact output_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2.1 (outsAt0 m c n (Nat.lt_of_succ_lt hn)).2.2

/-! ## A block's row sums are block rows of the array -/

theorem blockSum0 (c : Dev nD) (n : ℕ) (hn : n < cfg0.N) (r : Fin 96) :
    ∑ l : Fin 16384, blk0 m c ⟨n, hn⟩ (ix2 r l) = blockRow (arr0 m c) (96 * (n / 16) + r.val) (n % 16) := by
  have hN : n < 32 := lt_of_lt_of_eq hn N_0
  unfold blockRow
  rw [Finset.sum_range (fun l => entry (arr0 m c) (96 * (n / 16) + r.val) (16384 * (n % 16) + l))]
  refine Finset.sum_congr rfl fun l _ => ?_
  have ha : 96 * (n / 16) + r.val < 192 := by have := r.isLt; omega
  have hb : 16384 * (n % 16) + l.val < 262144 := by have := l.isLt; omega
  rw [show entry (arr0 m c) (96 * (n / 16) + r.val) (16384 * (n % 16) + l.val) = arr0 m c (ix2 ⟨_, ha⟩ ⟨_, hb⟩) from
    entry_eq (arr0 m c) ⟨_, ha⟩ ⟨_, hb⟩]
  exact block0_apply m c ⟨n, hn⟩ (ix2 r l) (ix2 ⟨_, ha⟩ ⟨_, hb⟩) rfl rfl

theorem blockSum1 (c : Dev nD) (n : ℕ) (hn : n < cfg0.N) (r : Fin 96) :
    ∑ l : Fin 16384, blk1 m c ⟨n, hn⟩ (ix2 r l) = blockRow (arr1 m c) (96 * (n / 16) + r.val) (n % 16) := by
  have hN : n < 32 := lt_of_lt_of_eq hn N_0
  unfold blockRow
  rw [Finset.sum_range (fun l => entry (arr1 m c) (96 * (n / 16) + r.val) (16384 * (n % 16) + l))]
  refine Finset.sum_congr rfl fun l _ => ?_
  have ha : 96 * (n / 16) + r.val < 192 := by have := r.isLt; omega
  have hb : 16384 * (n % 16) + l.val < 262144 := by have := l.isLt; omega
  rw [show entry (arr1 m c) (96 * (n / 16) + r.val) (16384 * (n % 16) + l.val) = arr1 m c (ix2 ⟨_, ha⟩ ⟨_, hb⟩) from
    entry_eq (arr1 m c) ⟨_, ha⟩ ⟨_, hb⟩]
  exact block1_apply m c ⟨n, hn⟩ (ix2 r l) (ix2 ⟨_, ha⟩ ⟨_, hb⟩) rfl rfl

/-! ## Point by point -/

/-- After point n = 16 i + j, row r of the first accumulator holds the sum of row 96 i + r of the first array over
    column blocks 0, …, j, and the second accumulator the same of the second array. -/
theorem accumulated (c : Dev nD) : ∀ (n : ℕ) (hn : n < cfg0.N) (r : Fin 96),
    (outsAt0 m c n hn).2.1 (ix2 r 0) = partialRow (arr0 m c) (96 * (n / 16) + r.val) (n % 16)
    ∧ (outsAt0 m c n hn).2.2 (ix2 r 0) = partialRow (arr1 m c) (96 * (n / 16) + r.val) (n % 16)
  | 0, hn, r => by
    obtain ⟨e0, e1⟩ := first_block m c ⟨0, hn⟩ rfl
    constructor
    · rw [show (outsAt0 m c 0 hn).2.1 = _ from e0, update0_apply, reset0_apply, blockSum0 m c 0 hn r]
      exact (partialRow_zero _ _).symm
    · rw [show (outsAt0 m c 0 hn).2.2 = _ from e1, update1_apply, reset1_apply, blockSum1 m c 0 hn r]
      exact (partialRow_zero _ _).symm
  | n + 1, hn, r => by
    by_cases h0 : (n + 1) % 16 = 0
    · obtain ⟨e0, e1⟩ := first_block m c ⟨n + 1, hn⟩ h0
      constructor
      · rw [show (outsAt0 m c (n + 1) hn).2.1 = _ from e0, update0_apply, reset0_apply, blockSum0 m c (n + 1) hn r, h0]
        exact (partialRow_zero _ _).symm
      · rw [show (outsAt0 m c (n + 1) hn).2.2 = _ from e1, update1_apply, reset1_apply, blockSum1 m c (n + 1) hn r, h0]
        exact (partialRow_zero _ _).symm
    · obtain ⟨e0, e1⟩ := later_block m c n hn h0
      obtain ⟨i0, i1⟩ := accumulated c n (Nat.lt_of_succ_lt hn) r
      have hN : n + 1 < 32 := lt_of_lt_of_eq hn N_0
      have hd : (n + 1) / 16 = n / 16 := by omega
      have hm : (n + 1) % 16 = n % 16 + 1 := by omega
      constructor
      · rw [e0, update0_apply, i0, blockSum0 m c (n + 1) hn r, hd, hm]
        exact (partialRow_succ _ _ _).symm
      · rw [e1, update1_apply, i1, blockSum1 m c (n + 1) hn r, hd, hm]
        exact (partialRow_succ _ _ _).symm

/-- So at a last column block, row r of the output block is the product of the two whole-row sums, each scaled. -/
theorem output_entry (c : Dev nD) (t : Fin cfg0.N) (h1 : t.val % 16 = 15) (r : Fin 96) :
    (outsAt0 m c t.val t.isLt).1 (ix2 r 0)
      = (partialRow (arr0 m c) (96 * (t.val / 16) + r.val) 15 * Ideal.ofBits .f32 0x36800000#32)
        * (partialRow (arr1 m c) (96 * (t.val / 16) + r.val) 15 * Ideal.ofBits .f32 0x36800000#32) := by
  obtain ⟨n, hn⟩ := t
  cases n with
  | zero => exact absurd (show (0 : ℕ) % 16 = 15 from h1) (by decide)
  | succ n =>
    obtain ⟨i0, i1⟩ := accumulated m c (n + 1) hn r
    have h15 : (n + 1) % 16 = 15 := h1
    rw [show (outsAt0 m c (n + 1) hn).1 = _ from last_block_output m c n hn h15, product_apply, i0, i1, h15]

end Cert.KernelIdeal.Body

end
-- ==== Proof.Final.lean ====
import proofs.«131661_j77214922048106_1_alg».proof.Proof.Gen.KernelIdeal.Frame
import proofs.«131661_j77214922048106_1_alg».proof.Proof.Sums
import proofs.«131661_j77214922048106_1_alg».proof.Proof.Blocks
import proofs.«131661_j77214922048106_1_alg».proof.Proof.Accumulate
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Body

open Idealize.ShloMosaic Idealize.ShloMosaic.TcCoe Idealize.ShloMosaic.Tactic Idealize.SL.Sem Idealize.ShloMosaic.ValueIdx
open Cert.KernelIdeal Cert.KernelIdeal.Gen Cert.RowMeans

variable (m : (ℓ : Loc nD τ sig) → Buf (Elt Ideal) ℓ)

/-! The region's result array, and what the host makes of it. Only the last column block of each row block writes
    the output block back, and those two blocks, rows 0 … 95 and rows 96 … 191, make up the [192, 1] array: row R
    ends at the product of the two whole-row sums of row R, each scaled. -/

/-- The region's result: row R of the [192, 1] array. -/
abbrev result (c : Dev nD) : Buf (Elt Ideal) ((c : Thread nD τ).loc main_v2) :=
  (fun y : S192x1.Idx => (partialRow (arr0 m c) (y 0).val 15 * Ideal.ofBits .f32 0x36800000#32) * (partialRow (arr1 m c) (y 0).val 15 * Ideal.ofBits .f32 0x36800000#32) :
    S192x1.Idx → EReal)

/-- The output block is 96 rows of the one column at every point. -/
theorem xsize_out : ∀ t : Fin cfg0.N, win0_2.xsize (grid0.coords t) 0 = 96 ∧ win0_2.xsize (grid0.coords t) 1 = 1 :=
  (by decide +kernel : ∀ t : Fin grid0.N, win0_2.xsize (grid0.coords t) 0 = 96 ∧ win0_2.xsize (grid0.coords t) 1 = 1)

/-- At a last column block, an entry of the output block is the result's entry 96 (t / 16) rows down. -/
theorem out_block_entry (c : Dev nD) (t : Fin cfg0.N) (h15 : t.val % 16 = 15) (y : S96x1.Idx) :
    (outsAt0 m c t.val t.isLt).1 y = result m c (((cfg0.win 2).blk t).view.emb y) := by
  obtain ⟨r, q, rfl⟩ : ∃ (r : Fin 96) (q : Fin 1), y = ix2 r q := ⟨y 0, y 1, eq_ix2 y⟩
  obtain rfl : q = 0 := Subsingleton.elim _ _
  rw [output_entry m c t h15 r]
  have he : ((((cfg0.win 2).blk t).view.emb (ix2 r (0 : Fin 1))) 0).val = 96 * (t.val / 16) + r.val := by
    show win0_2.index t 0 * 96 + 1 * r.val = _
    rw [(index_out t).1]; omega
  show _ = (partialRow (arr0 m c) ((((cfg0.win 2).blk t).view.emb (ix2 r (0 : Fin 1))) 0).val 15 * Ideal.ofBits .f32 0x36800000#32)
    * (partialRow (arr1 m c) ((((cfg0.win 2).blk t).view.emb (ix2 r (0 : Fin 1))) 0).val 15 * Ideal.ofBits .f32 0x36800000#32)
  rw [he]

/-- What a writing point writes back is its block of the result. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  show (cfg0.win 2).cut (grid0.coords t) ((dats m 0 c).after 2 t) = _
  rw [after0_2]
  funext y
  rw [View.read_apply]
  exact out_block_entry m c t h15 y

/-- Every row of the result array lies in the block some writing point writes back: row R in that of the last
    column block of row block R / 96. -/
theorem covered (i : S192x1.Idx) :
    ∃ t : Fin cfg0.N, (cfg0.win 2).flush t = true ∧ i ∈ ((cfg0.win 2).blk t).view.set := by
  have h0 : (i 0).val < 192 := (i 0).isLt
  have h1 : (i 1).val < 1 := (i 1).isLt
  have hN : cfg0.N = 32 := N_0
  obtain ⟨t, htv⟩ : ∃ t : Fin cfg0.N, t.val = 16 * ((i 0).val / 96) + 15 := ⟨⟨_, by rw [hN]; omega⟩, rfl⟩
  refine ⟨t, (flush0_2 t).mpr (by rw [htv]; omega), ?_⟩
  show i ∈ ((View.whole main_v2).slice (win0_2.rect t)).set
  rw [View.set_slice_whole, Rect.mem_set_unit]
  intro a
  match a with
  | ⟨0, _⟩ =>
    show win0_2.index t 0 * 96 ≤ (i 0 : ℕ) ∧ (i 0 : ℕ) < win0_2.index t 0 * 96 + win0_2.xsize (grid0.coords t) 0
    rw [(index_out t).1, (xsize_out t).1, htv]; omega
  | ⟨1, _⟩ =>
    show win0_2.index t 1 * 1 ≤ (i 1 : ℕ) ∧ (i 1 : ℕ) < win0_2.index t 1 * 1 + win0_2.xsize (grid0.coords t) 1
    rw [(index_out t).2, (xsize_out t).2]; omega

/-- So the region leaves the result array holding the result. -/
theorem final (c : Dev nD) : (dats m 0 c).arrAt 2 cfg0.N = result m c :=
  (dats m 0 c).arrAt_eq_of_cover 2 (result m c) (flushed_eq m c) covered

/-! ## After the region -/

/-- The host lays the result out as 16 x 12, sums it from zero and divides by 192: what the last buffer ends at. -/
theorem tail_eq (c : Dev nD) :
    Pipeline.afterTail₀ cfgs (dats m) 0 (V0 m) [hostOps1] c main_v5
      = Host.divf (Host.reduceAdd (shapeCast S16x12 (result m c : S192x1.Idx → EReal) shapeCasts_S192x1_S16x12) (constant (F := Ideal) S_ .f32 0x00000000#32) reducesTo_S16x12_S_d0_1 h_S_) (constant (F := Ideal) S_ .f32 0x43400000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = result m c :=
    (Pipeline.withArrays_arr spec0 launch0.win.arr_inj c (V0 m c) (fun w => (dats m 0 c).arrAt w (cfgs 0).N) 2).trans (final m c)
  exact congrArg (fun A : S192x1.Idx → EReal => Host.divf (Host.reduceAdd (shapeCast S16x12 A shapeCasts_S192x1_S16x12) (constant (F := Ideal) S_ .f32 0x00000000#32) reducesTo_S16x12_S_d0_1 h_S_) (constant (F := Ideal) S_ .f32 0x43400000#32)) e

/-- THE KERNEL'S RUN, with its result named: every weakly fair execution terminates with the last buffer at the
    mean of the 192 row products and the two arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
          = Host.divf (Host.reduceAdd (shapeCast S16x12 (result m c : S192x1.Idx → EReal) shapeCasts_S192x1_S16x12) (constant (F := Ideal) S_ .f32 0x00000000#32) reducesTo_S16x12_S_d0_1 h_S_) (constant (F := Ideal) S_ .f32 0x43400000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.RefValue.lean ====
import proofs.«131661_j77214922048106_1_alg».proof.Proof.Gen.ReferenceIdeal.Read
import proofs.«131661_j77214922048106_1_alg».proof.Proof.Sums
import Idealize.ShloMosaic.Lib.ValueIdx
import Idealize.ShloMosaic.PureOps.Ideal.Laws

noncomputable section

open scoped BigOperators

namespace Cert.RefValue

open Idealize.ShloMosaic Idealize.ShloMosaic.ValueIdx
open Cert.ReferenceIdeal Cert.ReferenceIdeal.Gen Cert.ReferenceIdeal.Read Cert.RowMeans

/-! The reference, entry by entry, over the extended reals. For each (b, s) it sums an argument over its three
    trailing axes from zero and divides by 262144; it multiplies the two quotients. Read through the 192 x 262144
    view of the argument, the sum at (b, s) is the sum of row 12 b + s, and the quotient by 2^18 is the product
    with 2^-18. -/

/-- The first argument's sum at (b, s): zero plus the sum of row 12 b + s of its view. -/
theorem rowSum0_apply (x : A5.Idx → EReal) (hc : A5.ShapeCasts A2) (b : Fin 16) (s : Fin 12) :
    val_main_v0 (F := Ideal) x (ix2 b s) = 0 + ∑ k : Fin 262144, shapeCast A2 x hc (ix2 ⟨12 * b.val + s.val, by have := b.isLt; have := s.isLt; omega⟩ k) := by
  unfold val_main_v0
  simp only [Host.reduceAdd, Ideal.hostReduceAdd_def]
  unfold Ideal.hostReduceAdd
  rw [reduce234_eq_row x _ hc b s, val_main_cst_apply, Ideal.ofBits_def, Ideal.ofBits_zero_f32]

/-- The second argument's, the same. -/
theorem rowSum1_apply (x : A5.Idx → EReal) (hc : A5.ShapeCasts A2) (b : Fin 16) (s : Fin 12) :
    val_main_v3 (F := Ideal) x (ix2 b s) = 0 + ∑ k : Fin 262144, shapeCast A2 x hc (ix2 ⟨12 * b.val + s.val, by have := b.isLt; have := s.isLt; omega⟩ k) := by
  unfold val_main_v3
  simp only [Host.reduceAdd, Ideal.hostReduceAdd_def]
  unfold Ideal.hostReduceAdd
  rw [reduce234_eq_row x _ hc b s, val_main_cst_1_apply, Ideal.ofBits_def, Ideal.ofBits_zero_f32]

/-- The reference's product at (b, s): the two row sums of row 12 b + s, each times 2^-18, multiplied. -/
theorem product_apply (x0 x1 : A5.Idx → EReal) (hc : A5.ShapeCasts A2) (b : Fin 16) (s : Fin 12) :
    val_main_v6 (F := Ideal) x0 x1 (ix2 b s)
      = ((∑ k : Fin 262144, shapeCast A2 x0 hc (ix2 ⟨12 * b.val + s.val, by have := b.isLt; have := s.isLt; omega⟩ k)) * Ideal.ofBits .f32 0x36800000#32)
        * ((∑ k : Fin 262144, shapeCast A2 x1 hc (ix2 ⟨12 * b.val + s.val, by have := b.isLt; have := s.isLt; omega⟩ k)) * Ideal.ofBits .f32 0x36800000#32) := by
  rw [val_main_v6_apply, val_main_v2_apply, val_main_v5_apply, val_main_v1_apply, val_main_v4_apply,
    val_main_cst_0_apply, val_main_cst_2_apply, rowSum0_apply x0 hc b s, rowSum1_apply x1 hc b s]
  simp only [Ideal.mulf_def, Ideal.hostDivf_def, Ideal.ofBits_def, zero_add]
  rw [div_two18, div_two18]

end Cert.RefValue

end
-- ==== Proof.Bridge.lean ====
import proofs.«131661_j77214922048106_1_alg».proof.Defs
import proofs.«131661_j77214922048106_1_alg».proof.Proof.Final
import proofs.«131661_j77214922048106_1_alg».proof.Proof.RefValue
import proofs.«131661_j77214922048106_1_alg».proof.Proof.Gen.Pre_finite_inputs
import Idealize.ShloMosaic.Lib.Pipeline.Value
import Idealize.ShloMosaic.Lib.ValueIdx

set_option maxRecDepth 16384

noncomputable section

open scoped BigOperators

namespace Cert.Bridge

open Idealize.ShloMosaic Idealize.ShloMosaic.TcCoe Idealize.SL.Sem Idealize.ShloMosaic.ValueIdx Cert.RowMeans

/-! The two programs compute one function of the arguments. Per (b, s) the kernel holds, in row 12 b + s of its
    result, the product of the two whole-row sums each times 2^-18; the reference holds the product of the two sums
    over the trailing axes each divided by 2^18. Those sums are the same sums (the row is the trailing axes laid
    flat, and a sum does not depend on its grouping into column blocks), and on every extended real the quotient by
    2^18 is the product with 2^-18. Both programs then take the same mean of the 16 x 12 values. -/

/-- The last step both programs share: the 16 x 12 values summed from zero, divided by 192. -/
def gridMean (y : FVec Ideal Cert.KernelIdeal.S16x12 .f32) : FVec Ideal Cert.KernelIdeal.S_ .f32 :=
  Host.divf (Host.reduceAdd y (constant (F := Ideal) Cert.KernelIdeal.S_ .f32 0x00000000#32) Cert.KernelIdeal.Facts₀.reducesTo_S16x12_S_d0_1 Cert.KernelIdeal.Facts₀.h_S_)
    (constant (F := Ideal) Cert.KernelIdeal.S_ .f32 0x43400000#32)

variable (m : (ℓ : Loc Cert.KernelIdeal.nD Cert.KernelIdeal.τ Cert.KernelIdeal.sig) → Buf (Elt Ideal) ℓ)

/-- The two arguments on core c, as functions on the five-axis index set. -/
abbrev argA (c : Dev Cert.KernelIdeal.nD) : A5.Idx → EReal := m ((c.tc : Thread Cert.KernelIdeal.nD Cert.KernelIdeal.τ).loc Cert.KernelIdeal.main_arg0)
abbrev argB (c : Dev Cert.KernelIdeal.nD) : A5.Idx → EReal := m ((c.tc : Thread Cert.KernelIdeal.nD Cert.KernelIdeal.τ).loc Cert.KernelIdeal.main_arg1)

/-- The kernel's value at (b, s): row 12 b + s of its result, in terms of the arguments' 192 x 262144 views. -/
theorem kernel_entry (c : Dev Cert.KernelIdeal.nD) (b : Fin 16) (s : Fin 12) :
    shapeCast Cert.KernelIdeal.S16x12 (Cert.KernelIdeal.Body.result m c : Cert.KernelIdeal.S192x1.Idx → EReal) Cert.KernelIdeal.Facts₀.shapeCasts_S192x1_S16x12 (ix2 b s)
      = ((∑ k : Fin 262144, shapeCast A2 (argA m c) Cert.KernelIdeal.Facts₀.shapeCasts_S16x12x64x64x64_S192x262144 (ix2 ⟨12 * b.val + s.val, by have := b.isLt; have := s.isLt; omega⟩ k)) * Ideal.ofBits .f32 0x36800000#32)
        * ((∑ k : Fin 262144, shapeCast A2 (argB m c) Cert.KernelIdeal.Facts₀.shapeCasts_S16x12x64x64x64_S192x262144 (ix2 ⟨12 * b.val + s.val, by have := b.isLt; have := s.isLt; omega⟩ k)) * Ideal.ofBits .f32 0x36800000#32) := by
  rw [shapeCast_apply _ _ (ix2 b s) (ix2 (⟨12 * b.val + s.val, by have := b.isLt; have := s.isLt; omega⟩ : Fin 192) (0 : Fin 1)) (by
    rw [Shape.rowMajor_val_two, Shape.rowMajor_val_two]
    show (12 * b.val + s.val) * 1 + 0 = b.val * 12 + s.val
    omega)]
  show (partialRow (Cert.KernelIdeal.Body.arr0 m c) (12 * b.val + s.val) 15 * Ideal.ofBits .f32 0x36800000#32)
      * (partialRow (Cert.KernelIdeal.Body.arr1 m c) (12 * b.val + s.val) 15 * Ideal.ofBits .f32 0x36800000#32) = _
  rw [partialRow_last (Cert.KernelIdeal.Body.arr0 m c) ⟨12 * b.val + s.val, by have := b.isLt; have := s.isLt; omega⟩, partialRow_last (Cert.KernelIdeal.Body.arr1 m c) ⟨12 * b.val + s.val, by have := b.isLt; have := s.isLt; omega⟩]
  rw [show Cert.KernelIdeal.Body.arr0 m c = _ from Cert.KernelIdeal.Body.array0_eq m c, show Cert.KernelIdeal.Body.arr1 m c = _ from Cert.KernelIdeal.Body.array1_eq m c]

/-- THE VALUE CLAIM: run from memories that agree on the arguments, both programs end at the same mean. -/
theorem algebraic : Cert.algebraic_KernelIdeal_ReferenceIdeal := by
  intro m ρ m' ρ' _ hagree
  refine ⟨fun c => gridMean (shapeCast Cert.KernelIdeal.S16x12 (Cert.KernelIdeal.Body.result m c : Cert.KernelIdeal.S192x1.Idx → EReal) Cert.KernelIdeal.Facts₀.shapeCasts_S192x1_S16x12),
    Cert.KernelIdeal.Body.run m ρ, ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  show gridMean (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = gridMean _
  refine congrArg gridMean (funext fun i => ?_)
  obtain ⟨b, s, rfl⟩ : ∃ (b : Fin 16) (s : Fin 12), i = ix2 b s := ⟨i 0, i 1, eq_ix2 i⟩
  rw [kernel_entry m c b s]
  exact Cert.RefValue.product_apply _ _ Cert.KernelIdeal.Facts₀.shapeCasts_S16x12x64x64x64_S192x262144 b s

end Cert.Bridge

end
-- ==== Proof.lean ====
/- The mean over (b, s) of  mean(common[b, s]) · mean(specific[b, s])  for two f32[16, 12, 64, 64, 64] arrays, computed
   two ways, is one number over the extended reals.

   The kernel reads each argument as 192 rows of 262144 entries and visits them in blocks of 96 rows by 16384
   columns: 2 row blocks, and inside each 16 column blocks. Two accumulators of 96 entries are zeroed at a row
   block's first column block and at every point grow by the sums of the block's rows, so after column block j
   they hold each row's sum over column blocks 0 … j; at the sixteenth they hold whole-row sums, and the output
   block is written: (sum of row of the first array · 2^-18) · (sum of row of the second · 2^-18). Only those two
   points write the output back, and their blocks are rows 0 … 95 and 96 … 191 of the [192, 1] result. The host
   then lays the 192 values out as 16 x 12, sums them from zero and divides by 192.

   The reference sums each argument over its three trailing axes at every (b, s), divides by 262144 = 2^18,
   multiplies the two quotients, sums over the 16 x 12 values from zero and divides by 192.

   They agree because row 12 b + s of the 192 x 262144 view is the trailing axes of (b, s) laid flat; because
   addition of extended reals is commutative and associative, so a row's sum does not depend on its grouping into
   sixteen column blocks; and because 2^-18 is exactly the reciprocal of 2^18, so that the quotient by 2^18 is the
   product with 2^-18 on every extended real, the infinities included. Nothing here needs the inputs to be finite.
   The last step is the same in both programs and is carried as one function of the 16 x 12 values.

   The two kernel programs' termination and unchanged arguments are their generated frame runs; the reference's
   is its generated run with the result dropped. The idealization rewrote no operation, so there is nothing to
   preserve beyond the text itself. -/
import proofs.«131661_j77214922048106_1_alg».proof.Defs
import proofs.«131661_j77214922048106_1_alg».proof.Proof.Gen.Kernel
import proofs.«131661_j77214922048106_1_alg».proof.Proof.Gen.Kernel.Skeleton
import proofs.«131661_j77214922048106_1_alg».proof.Proof.Gen.Kernel.Launch
import proofs.«131661_j77214922048106_1_alg».proof.Proof.Gen.Kernel.Points
import proofs.«131661_j77214922048106_1_alg».proof.Proof.Gen.Kernel.Frame
import proofs.«131661_j77214922048106_1_alg».proof.Proof.Gen.KernelIdeal
import proofs.«131661_j77214922048106_1_alg».proof.Proof.Gen.KernelIdeal.Skeleton
import proofs.«131661_j77214922048106_1_alg».proof.Proof.Gen.KernelIdeal.Launch
import proofs.«131661_j77214922048106_1_alg».proof.Proof.Gen.KernelIdeal.Points
import proofs.«131661_j77214922048106_1_alg».proof.Proof.Gen.KernelIdeal.Frame
import proofs.«131661_j77214922048106_1_alg».proof.Proof.Gen.ReferenceIdeal
import proofs.«131661_j77214922048106_1_alg».proof.Proof.Gen.ReferenceIdeal.Run
import proofs.«131661_j77214922048106_1_alg».proof.Proof.Gen.Pre_finite_inputs
import proofs.«131661_j77214922048106_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Bridge.algebraic⟩

end Cert.Proof

end
